-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048 : Shape := ⟨2, ![32, 2048]⟩
abbrev S32000x512 : Shape := ⟨2, ![32000, 512]⟩
abbrev S2x512 : Shape := ⟨2, ![2, 512]⟩
abbrev S2 : Shape := ⟨1, ![2]⟩
abbrev S_ : Shape := ⟨0, ![]⟩

class Facts : Prop where
  bcast_S_S32000x512 : S_.BroadcastsInDim S32000x512 (![] : Fin 0 → Fin S32000x512.rank)
  reducesTo_S32000x512_S_d0_1 : S32000x512.ReducesTo [0, 1] S_
  h_S_ : 0 < S_.numel
  bcast_S_S2x512 : S_.BroadcastsInDim S2x512 (![] : Fin 0 → Fin S2x512.rank)
  reducesTo_S2x512_S_d0_1 : S2x512.ReducesTo [0, 1] S_
  bcast_S_S2 : S_.BroadcastsInDim S2 (![] : Fin 0 → Fin S2.rank)
  reducesTo_S2_S_d0 : S2.ReducesTo [0] S_

variable [Facts]

def fn {F : FTy → Type} [FloatOps F] (main_arg0 : IVec S32x2048 32) (main_arg1 : FVec F S32000x512 .f32) (main_arg2 : FVec F S2x512 .f32) (main_arg3 : FVec F S2 .f32) : IVec S_ 1 :=
  let main_v0 : FVec F S32000x512 .f32 := Host.absf main_arg1
  let main_cst : FVec F S_ .f32 := constant S_ .f32 0x7F800000#32
  let main_v1 : FVec F S32000x512 .f32 := broadcastInDim S32000x512 ![] bcast_S_S32000x512 main_cst
  let main_v2 : IVec S32000x512 1 := cmpf .olt main_v0 main_v1
  let main_c : IVec S_ 1 := constantI S_ 1 1#1
  let main_v3 : IVec S_ 1 := (fun x v => Host.reduce IntOp.andi x v reducesTo_S32000x512_S_d0_1 h_S_) main_v2 main_c
  let main_v4 : FVec F S2x512 .f32 := Host.absf main_arg2
  let main_cst_0 : FVec F S_ .f32 := constant S_ .f32 0x7F800000#32
  let main_v5 : FVec F S2x512 .f32 := broadcastInDim S2x512 ![] bcast_S_S2x512 main_cst_0
  let main_v6 : IVec S2x512 1 := cmpf .olt main_v4 main_v5
  let main_c_1 : IVec S_ 1 := constantI S_ 1 1#1
  let main_v7 : IVec S_ 1 := (fun x v => Host.reduce IntOp.andi x v reducesTo_S2x512_S_d0_1 h_S_) main_v6 main_c_1
  let main_v8 : IVec S_ 1 := andi main_v3 main_v7
  let main_v9 : FVec F S2 .f32 := Host.absf main_arg3
  let main_cst_2 : FVec F S_ .f32 := constant S_ .f32 0x7F800000#32
  let main_v10 : FVec F S2 .f32 := broadcastInDim S2 ![] bcast_S_S2 main_cst_2
  let main_v11 : IVec S2 1 := cmpf .olt main_v9 main_v10
  let main_c_3 : IVec S_ 1 := constantI S_ 1 1#1
  let main_v12 : IVec S_ 1 := (fun x v => Host.reduce IntOp.andi x v reducesTo_S2_S_d0 h_S_) main_v11 main_c_3
  let main_v13 : IVec S_ 1 := andi main_v8 main_v12
  main_v13
-- ==== Kernel.lean ====
abbrev S32x2048 : Shape := ⟨2, ![32, 2048]⟩
abbrev S32000x512 : Shape := ⟨2, ![32000, 512]⟩
abbrev S2x512 : Shape := ⟨2, ![2, 512]⟩
abbrev S2 : Shape := ⟨1, ![2]⟩
abbrev S_ : Shape := ⟨0, ![]⟩
abbrev S32x2048x1 : Shape := ⟨3, ![32, 2048, 1]⟩
abbrev S32x2048x512 : Shape := ⟨3, ![32, 2048, 512]⟩
abbrev S32x1x512 : Shape := ⟨3, ![32, 1, 512]⟩
abbrev S512x2 : Shape := ⟨2, ![512, 2]⟩
abbrev S32x2 : Shape := ⟨2, ![32, 2]⟩
abbrev S8x1x512 : Shape := ⟨3, ![8, 1, 512]⟩
abbrev S8x2048x512 : Shape := ⟨3, ![8, 2048, 512]⟩
abbrev S8x2 : Shape := ⟨2, ![8, 2]⟩
abbrev S8x1x2048 : Shape := ⟨3, ![8, 1, 2048]⟩
abbrev S8x1 : Shape := ⟨2, ![8, 1]⟩
abbrev S8x1x1 : Shape := ⟨3, ![8, 1, 1]⟩
abbrev S8x512 : Shape := ⟨2, ![8, 512]⟩
abbrev S1x2 : Shape := ⟨2, ![1, 2]⟩

abbrev nBuf : Space → Nat
  | .hbm => 18
  | .vmem => 8
  | .smem => 0
  | _ => 0

abbrev bufTy : (tb : Table) → Fin (tcTables nBuf tb) → BufTy
  | .hbm, ⟨0, _⟩ => ⟨S32x2048, .i32⟩
  | .hbm, ⟨1, _⟩ => ⟨S32000x512, .f32⟩
  | .hbm, ⟨2, _⟩ => ⟨S2x512, .f32⟩
  | .hbm, ⟨3, _⟩ => ⟨S2, .f32⟩
  | .hbm, ⟨4, _⟩ => ⟨S_, .i32⟩
  | .hbm, ⟨5, _⟩ => ⟨S32x2048, .i32⟩
  | .hbm, ⟨6, _⟩ => ⟨S32x2048, .i1⟩
  | .hbm, ⟨7, _⟩ => ⟨S_, .i32⟩
  | .hbm, ⟨8, _⟩ => ⟨S32x2048, .i32⟩
  | .hbm, ⟨9, _⟩ => ⟨S32x2048, .i32⟩
  | .hbm, ⟨10, _⟩ => ⟨S32x2048, .i32⟩
  | .hbm, ⟨11, _⟩ => ⟨S32x2048x1, .i32⟩
  | .hbm, ⟨12, _⟩ => ⟨S32x2048x512, .f32⟩
  | .hbm, ⟨13, _⟩ => ⟨S32x2048x512, .bf16⟩
  | .hbm, ⟨14, _⟩ => ⟨S32x1x512, .bf16⟩
  | .hbm, ⟨15, _⟩ => ⟨S2x512, .bf16⟩
  | .hbm, ⟨16, _⟩ => ⟨S512x2, .bf16⟩
  | .hbm, ⟨17, _⟩ => ⟨S32x2, .f32⟩
  | .local _ .vmem, ⟨0, _⟩ => ⟨S8x1x512, .bf16⟩
  | .local _ .vmem, ⟨1, _⟩ => ⟨S8x1x512, .bf16⟩
  | .local _ .vmem, ⟨2, _⟩ => ⟨S8x2048x512, .bf16⟩
  | .local _ .vmem, ⟨3, _⟩ => ⟨S8x2048x512, .bf16⟩
  | .local _ .vmem, ⟨4, _⟩ => ⟨S512x2, .bf16⟩
  | .local _ .vmem, ⟨5, _⟩ => ⟨S2, .f32⟩
  | .local _ .vmem, ⟨6, _⟩ => ⟨S8x2, .f32⟩
  | .local _ .vmem, ⟨7, _⟩ => ⟨S8x2, .f32⟩
  | _, _ => ⟨S32x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x1x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x2 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8x2 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S32x2048 : S_.BroadcastsInDim S32x2048 (![] : Fin 0 → Fin S32x2048.rank)
  bcast_S32x2048_S32x2048x1_0_1 : S32x2048.BroadcastsInDim S32x2048x1 (![0, 1] : Fin 2 → Fin S32x2048x1.rank)
  bitsLt_bf16_f32 : FTy.bits .bf16 < FTy.bits .f32
  slices_S32x2048x512_S32x1x512_0_0_0 : S32x2048x512.Slices ![0, 0, 0] S32x1x512
  transposes_S2x512_S512x2_1_0 : S2x512.Transposes [1, 0] S512x2
  inb_S8x1x512_S8x1x512_0_0_0 : ∀ a, (![0, 0, 0] : Fin 3 → Nat) a + S8x1x512.size a ≤ S8x1x512.size a
  h_S8x1x512 : 0 < S8x1x512.numel
  shapeCasts_S8x1x512_S8x1x512 : S8x1x512.ShapeCasts S8x1x512
  inb_S8x2048x512_S8x2048x512_0_0_0 : ∀ a, (![0, 0, 0] : Fin 3 → Nat) a + S8x2048x512.size a ≤ S8x2048x512.size a
  h_S8x2048x512 : 0 < S8x2048x512.numel
  shapeCasts_S8x2048x512_S8x2048x512 : S8x2048x512.ShapeCasts S8x2048x512
  reduces_S8x1x2048_S8x1 : S8x1x2048.Reduces [2] S8x1
  shapeCasts_S8x1_S8x1x1 : S8x1.ShapeCasts S8x1x1
  broadcasts_S8x1x1_S8x1x2048 : S8x1x1.Broadcasts S8x1x2048
  shapeCasts_S8x1x512_S8x512 : S8x1x512.ShapeCasts S8x512
  inb_S512x2_S512x2_0_0 : ∀ a, (![0, 0] : Fin 2 → Nat) a + S512x2.size a ≤ S512x2.size a
  h_S512x2 : 0 < S512x2.numel
  shapeCasts_S512x2_S512x2 : S512x2.ShapeCasts S512x2
  inb_S2_S2_0 : ∀ a, (![0] : Fin 1 → Nat) a + S2.size a ≤ S2.size a
  h_S2 : 0 < S2.numel
  shapeCasts_S2_S1x2 : S2.ShapeCasts S1x2
  broadcasts_S1x2_S8x2 : S1x2.Broadcasts S8x2
  inb_S8x2_S8x2_0_0 : ∀ a, (![0, 0] : Fin 2 → Nat) a + S8x2.size a ≤ S8x2.size a
  h_S8x2 : 0 < S8x2.numel
  gather_S32000x512_S32x2048x1_S32x2048x512_2_0_n_n_0_2_1512_wf : GatherDims.WF S32000x512 S32x2048x1 S32x2048x512 [2] [0] [] [0] [] 2 ![1, 512]
  dot_S8x1x512_S8x2048x512_S8x1x2048_2_2_1_1_0_0_wf : DotDims.WF S8x1x512 S8x2048x512 S8x1x2048 [2] [2] [1] [1] [0] [0]
  dot_S8x1x2048_S8x2048x512_S8x1x512_2_1_1_2_0_0_wf : DotDims.WF S8x1x2048 S8x2048x512 S8x1x512 [2] [1] [1] [2] [0] [0]
  dot_S8x512_S512x2_S8x2_1_0_0_1_n_n_wf : DotDims.WF S8x512 S512x2 S8x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x1x512.size a ≤ S32x1x512.size a
  hwx0_0 : ∀ i : grid0.Coords, EltTy.bits .bf16 = 32 ∨ (Rect.block (s := S32x1x512) S8x1x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x2048x512.size a ≤ S32x2048x512.size a
  hwx0_1 : ∀ i : grid0.Coords, EltTy.bits .bf16 = 32 ∨ (Rect.block (s := S32x2048x512) S8x2048x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x2.size a ≤ S512x2.size a
  hwx0_2 : ∀ i : grid0.Coords, EltTy.bits .bf16 = 32 ∨ (Rect.block (s := S512x2) S512x2.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2.size a ≤ S2.size a
  hwx0_3 : ∀ i : grid0.Coords, EltTy.bits .f32 = 32 ∨ (Rect.block (s := S2) S2.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x2.size a ≤ S32x2.size a
  hwx0_4 : ∀ i : grid0.Coords, EltTy.bits .f32 = 32 ∨ (Rect.block (s := S32x2) S8x2.size (cc0_transform_4 i) (hinb0_4 i)).WholeWords (EltTy.packing .f32)

variable [Facts₀]

def gather_S32000x512_S32x2048x1_S32x2048x512_2_0_n_n_0_2_1512 : GatherDims S32000x512 S32x2048x1 S32x2048x512 where
  offsetDims := [2]
  collapsedSliceDims := [0]
  operandBatchingDims := []
  startIndicesBatchingDims := []
  startIndexMap := [0]
  indexVectorDim := 2
  sliceSizes := ![1, 512]
  wf := gather_S32000x512_S32x2048x1_S32x2048x512_2_0_n_n_0_2_1512_wf
def dot_S8x1x512_S8x2048x512_S8x1x2048_2_2_1_1_0_0 : DotDims S8x1x512 S8x2048x512 S8x1x2048 where
  lhsContracting := [2]
  rhsContracting := [2]
  lhsNonContracting := [1]
  rhsNonContracting := [1]
  lhsBatch := [0]
  rhsBatch := [0]
  wf := dot_S8x1x512_S8x2048x512_S8x1x2048_2_2_1_1_0_0_wf
def dot_S8x1x2048_S8x2048x512_S8x1x512_2_1_1_2_0_0 : DotDims S8x1x2048 S8x2048x512 S8x1x512 where
  lhsContracting := [2]
  rhsContracting := [1]
  lhsNonContracting := [1]
  rhsNonContracting := [2]
  lhsBatch := [0]
  rhsBatch := [0]
  wf := dot_S8x1x2048_S8x2048x512_S8x1x512_2_1_1_2_0_0_wf
def dot_S8x512_S512x2_S8x2_1_0_0_1_n_n : DotDims S8x512 S512x2 S8x2 where
  lhsContracting := [1]
  rhsContracting := [0]
  lhsNonContracting := [0]
  rhsNonContracting := [1]
  lhsBatch := []
  rhsBatch := []
  wf := dot_S8x512_S512x2_S8x2_1_0_0_1_n_n_wf

abbrev win0_0 : Pipeline.Window sig grid0 :=
  Pipeline.Window.ofSpec (Memref.whole main_v8) S8x1x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S8x2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S512x2.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S2.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S8x2.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x2048 : Shape := ⟨2, ![32, 2048]⟩
abbrev S32000x512 : Shape := ⟨2, ![32000, 512]⟩
abbrev S2x512 : Shape := ⟨2, ![2, 512]⟩
abbrev S2 : Shape := ⟨1, ![2]⟩
abbrev S_ : Shape := ⟨0, ![]⟩
abbrev S32x2048x1 : Shape := ⟨3, ![32, 2048, 1]⟩
abbrev S32x2048x512 : Shape := ⟨3, ![32, 2048, 512]⟩
abbrev S32x2048x2048 : Shape := ⟨3, ![32, 2048, 2048]⟩
abbrev S32x1x512 : Shape := ⟨3, ![32, 1, 512]⟩
abbrev S32x512 : Shape := ⟨2, ![32, 512]⟩
abbrev S512x2 : Shape := ⟨2, ![512, 2]⟩
abbrev S32x2 : Shape := ⟨2, ![32, 2]⟩
abbrev S1x2 : Shape := ⟨2, ![1, 2]⟩

abbrev nBuf : Space → Nat
  | .hbm => 36
  | .vmem => 0
  | .smem => 0
  | _ => 0

abbrev bufTy : (tb : Table) → Fin (tcTables nBuf tb) → BufTy
  | .hbm, ⟨0, _⟩ => ⟨S32x2048, .i32⟩
  | .hbm, ⟨1, _⟩ => ⟨S32000x512, .f32⟩
  | .hbm, ⟨2, _⟩ => ⟨S2x512, .f32⟩
  | .hbm, ⟨3, _⟩ => ⟨S2, .f32⟩
  | .hbm, ⟨4, _⟩ => ⟨S_, .i32⟩
  | .hbm, ⟨5, _⟩ => ⟨S32x2048, .i32⟩
  | .hbm, ⟨6, _⟩ => ⟨S32x2048, .i1⟩
  | .hbm, ⟨7, _⟩ => ⟨S_, .i32⟩
  | .hbm, ⟨8, _⟩ => ⟨S32x2048, .i32⟩
  | .hbm, ⟨9, _⟩ => ⟨S32x2048, .i32⟩
  | .hbm, ⟨10, _⟩ => ⟨S32x2048, .i32⟩
  | .hbm, ⟨11, _⟩ => ⟨S32x2048x1, .i32⟩
  | .hbm, ⟨12, _⟩ => ⟨S32x2048x512, .f32⟩
  | .hbm, ⟨13, _⟩ => ⟨S32x2048x2048, .f32⟩
  | .hbm, ⟨14, _⟩ => ⟨S_, .f32⟩
  | .hbm, ⟨15, _⟩ => ⟨S32x2048, .f32⟩
  | .hbm, ⟨16, _⟩ => ⟨S_, .f32⟩
  | .hbm, ⟨17, _⟩ => ⟨S32x2048, .f32⟩
  | .hbm, ⟨18, _⟩ => ⟨S32x2048, .f32⟩
  | .hbm, ⟨19, _⟩ => ⟨S32x2048x1, .f32⟩
  | .hbm, ⟨20, _⟩ => ⟨S32x2048x2048, .f32⟩
  | .hbm, ⟨21, _⟩ => ⟨S32x2048x2048, .f32⟩
  | .hbm, ⟨22, _⟩ => ⟨S32x2048x2048, .f32⟩
  | .hbm, ⟨23, _⟩ => ⟨S_, .f32⟩
  | .hbm, ⟨24, _⟩ => ⟨S32x2048, .f32⟩
  | .hbm, ⟨25, _⟩ => ⟨S32x2048x1, .f32⟩
  | .hbm, ⟨26, _⟩ => ⟨S32x2048x2048, .f32⟩
  | .hbm, ⟨27, _⟩ => ⟨S32x2048x2048, .f32⟩
  | .hbm, ⟨28, _⟩ => ⟨S32x2048x512, .f32⟩
  | .hbm, ⟨29, _⟩ => ⟨S32x1x512, .f32⟩
  | .hbm, ⟨30, _⟩ => ⟨S32x512, .f32⟩
  | .hbm, ⟨31, _⟩ => ⟨S512x2, .f32⟩
  | .hbm, ⟨32, _⟩ => ⟨S32x2, .f32⟩
  | .hbm, ⟨33, _⟩ => ⟨S1x2, .f32⟩
  | .hbm, ⟨34, _⟩ => ⟨S32x2, .f32⟩
  | .hbm, ⟨35, _⟩ => ⟨S32x2, .f32⟩
  | _, _ => ⟨S32x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]

class Facts₀ : Prop where
  bcast_S_S32x2048 : S_.BroadcastsInDim S32x2048 (![] : Fin 0 → Fin S32x2048.rank)
  bcast_S32x2048_S32x2048x1_0_1 : S32x2048.BroadcastsInDim S32x2048x1 (![0, 1] : Fin 2 → Fin S32x2048x1.rank)
  reducesTo_S32x2048x2048_S32x2048_d2 : S32x2048x2048.ReducesTo [2] S32x2048
  h_S_ : 0 < S_.numel
  bcast_S32x2048x1_S32x2048x2048_0_1_2 : S32x2048x1.BroadcastsInDim S32x2048x2048 (![0, 1, 2] : Fin 3 → Fin S32x2048x2048.rank)
  slices_S32x2048x512_S32x1x512_0_0_0 : S32x2048x512.Slices ![0, 0, 0] S32x1x512
  shapeCasts_S32x1x512_S32x512 : S32x1x512.ShapeCasts S32x512
  transposes_S2x512_S512x2_1_0 : S2x512.Transposes [1, 0] S512x2
  bcast_S2_S1x2_1 : S2.BroadcastsInDim S1x2 (![1] : Fin 1 → Fin S1x2.rank)
  bcast_S1x2_S32x2_0_1 : S1x2.BroadcastsInDim S32x2 (![0, 1] : Fin 2 → Fin S32x2.rank)
  gather_S32000x512_S32x2048x1_S32x2048x512_2_0_n_n_0_2_1512_wf : GatherDims.WF S32000x512 S32x2048x1 S32x2048x512 [2] [0] [] [0] [] 2 ![1, 512]
  dot_S32x2048x512_S32x2048x512_S32x2048x2048_2_2_1_1_0_0_wf : DotDims.WF S32x2048x512 S32x2048x512 S32x2048x2048 [2] [2] [1] [1] [0] [0]
  dot_S32x2048x2048_S32x2048x512_S32x2048x512_2_1_1_2_0_0_wf : DotDims.WF S32x2048x2048 S32x2048x512 S32x2048x512 [2] [1] [1] [2] [0] [0]
  dot_S32x512_S512x2_S32x2_1_0_0_1_n_n_wf : DotDims.WF S32x512 S512x2 S32x2 [1] [0] [0] [1] [] []

variable [Facts₀]

def gather_S32000x512_S32x2048x1_S32x2048x512_2_0_n_n_0_2_1512 : GatherDims S32000x512 S32x2048x1 S32x2048x512 where
  offsetDims := [2]
  collapsedSliceDims := [0]
  operandBatchingDims := []
  startIndicesBatchingDims := []
  startIndexMap := [0]
  indexVectorDim := 2
  sliceSizes := ![1, 512]
  wf := gather_S32000x512_S32x2048x1_S32x2048x512_2_0_n_n_0_2_1512_wf
def dot_S32x2048x512_S32x2048x512_S32x2048x2048_2_2_1_1_0_0 : DotDims S32x2048x512 S32x2048x512 S32x2048x2048 where
  lhsContracting := [2]
  rhsContracting := [2]
  lhsNonContracting := [1]
  rhsNonContracting := [1]
  lhsBatch := [0]
  rhsBatch := [0]
  wf := dot_S32x2048x512_S32x2048x512_S32x2048x2048_2_2_1_1_0_0_wf
def dot_S32x2048x2048_S32x2048x512_S32x2048x512_2_1_1_2_0_0 : DotDims S32x2048x2048 S32x2048x512 S32x2048x512 where
  lhsContracting := [2]
  rhsContracting := [1]
  lhsNonContracting := [1]
  rhsNonContracting := [2]
  lhsBatch := [0]
  rhsBatch := [0]
  wf := dot_S32x2048x2048_S32x2048x512_S32x2048x512_2_1_1_2_0_0_wf
def dot_S32x512_S512x2_S32x2_1_0_0_1_n_n : DotDims S32x512 S512x2 S32x2 where
  lhsContracting := [1]
  rhsContracting := [0]
  lhsNonContracting := [0]
  rhsNonContracting := [1]
  lhsBatch := []
  rhsBatch := []
  wf := dot_S32x512_S512x2_S32x2_1_0_0_1_n_n_wf

class Facts : Prop extends Facts₀ where

variable [Facts]
-- ==== Proof.AttentionRow.lean ====
/-
  The mathematics both programs compute, for ONE batch row and ONE class, over the extended reals.

  Given the query `q : Fin 512 → EReal` (the row's first token embedding), the keys/values
  `x : Fin 2048 → Fin 512 → EReal` (the row's embedded sequence), one classifier row `w` and its bias `b`:
    score s   = ∑ d, q d · x s d
    top       = max (−∞) (max over s of score s, started from −∞)
    weight s  = exp (score s − top)
    attn s    = weight s / ∑ s', weight s'
    pooled d  = ∑ s, attn s · x s d
    rowLogit  = (∑ d, pooled d · w d) + b
  The kernel evaluates this for the eight rows of a batch tile with the query taken from the sliced first token;
  the reference evaluates the full 2048 × 2048 attention and keeps query row 0. Neither side re-associates
  a product over a sum, so no finiteness is used: the two are the same expression of the same entries.
-/
import Idealize.ShloMosaic.PureOps.Ideal
import Idealize.ShloMosaic.PureOps.Ideal.Laws
import Idealize.ShloMosaic.Lib.ValueIdx

noncomputable section

open scoped BigOperators

namespace Cert.AttentionRow

open Idealize.ShloMosaic Idealize.ShloMosaic.ValueIdx

/-- The value both row maxima start from: the f32 pattern of −∞, kept as its pattern (the same word on both sides). -/
abbrev negInf : EReal := Ideal.ofBits .f32 0xFF800000#32

/-- The unscaled attention score of key position `s`: the inner product of the query with that key. -/
def score (q : Fin 512 → EReal) (x : Fin 2048 → Fin 512 → EReal) (s : Fin 2048) : EReal :=
  ∑ d : Fin 512, q d * x s d

/-- The row's largest score, as softmax takes it: a maximum from −∞ over the positions, joined with −∞ once more. -/
def top (q : Fin 512 → EReal) (x : Fin 2048 → Fin 512 → EReal) : EReal :=
  max negInf ((Finset.univ : Finset (Fin 2048)).fold max negInf (score q x))

/-- The unnormalised softmax weight of position `s`. -/
def weight (q : Fin 512 → EReal) (x : Fin 2048 → Fin 512 → EReal) (s : Fin 2048) : EReal :=
  Ideal.exp (score q x s - top q x)

/-- The softmax weight of position `s`: its unnormalised weight over the sum of them all. -/
def attn (q : Fin 512 → EReal) (x : Fin 2048 → Fin 512 → EReal) (s : Fin 2048) : EReal :=
  Ideal.div (weight q x s) (∑ s' : Fin 2048, weight q x s')

/-- The attention output for the query, feature `d`: the values averaged with the softmax weights. -/
def pooled (q : Fin 512 → EReal) (x : Fin 2048 → Fin 512 → EReal) (d : Fin 512) : EReal :=
  ∑ s : Fin 2048, attn q x s * x s d

/-- One logit: the pooled vector against one classifier row, plus that class's bias. -/
def rowLogit (q : Fin 512 → EReal) (x : Fin 2048 → Fin 512 → EReal) (w : Fin 512 → EReal) (b : EReal) : EReal :=
  (∑ d : Fin 512, pooled q x d * w d) + b

/-- The logit of batch row `r` and class `c` from the embedded sequences `X` (batch × position × feature), the classifier
    `W` (class × feature) and the bias: the query is the row's token at position 0. -/
def logitAt (X : (⟨3, ![32, 2048, 512]⟩ : Shape).Idx → EReal) (W : (⟨2, ![2, 512]⟩ : Shape).Idx → EReal)
    (bias : (⟨1, ![2]⟩ : Shape).Idx → EReal) (r : Fin 32) (c : Fin 2) : EReal :=
  rowLogit (fun d => X (ix3 r (0 : Fin 2048) d)) (fun s d => X (ix3 r s d)) (fun d => W (ix2 c d)) (bias (ix1 c))

/-- The whole result array [32, 2]. -/
def logits (X : (⟨3, ![32, 2048, 512]⟩ : Shape).Idx → EReal) (W : (⟨2, ![2, 512]⟩ : Shape).Idx → EReal)
    (bias : (⟨1, ![2]⟩ : Shape).Idx → EReal) : (⟨2, ![32, 2]⟩ : Shape).Idx → EReal :=
  fun i => logitAt X W bias (i 0) (i 1)

theorem logits_ix2 (X : (⟨3, ![32, 2048, 512]⟩ : Shape).Idx → EReal) (W : (⟨2, ![2, 512]⟩ : Shape).Idx → EReal)
    (bias : (⟨1, ![2]⟩ : Shape).Idx → EReal) (r : Fin 32) (c : Fin 2) :
    logits X W bias (ix2 r c) = logitAt X W bias r c := rfl

end Cert.AttentionRow

end
-- ==== Proof.KernelRow.lean ====
/-
  The kernel body's one stored value, read at an index. For a batch tile of eight rows the body holds the tile's queries
  q (8 × 1 × 512), its embedded sequences x (8 × 2048 × 512), the transposed classifier w (512 × 2) and the bias (2), and stores
    (softmax_s (∑ d, q[p,0,d] · x[p,s,d]) contracted with x over s, then with w over d) + bias
  at (p, c). Each non-pointwise operation is read at coordinates by one lemma — the three matrix products as sums over
  their one contracted axis, the two lane reductions as a fold of `max` and a sum over the key axis, the keep-dims
  broadcast, the squeeze of the unit query axis, the bias row broadcast down the tile — and the composition at (p, c) is
  `AttentionRow.rowLogit` of row p's query, keys and values, classifier column c and bias entry c.
-/
import proofs.«125949_j1494648619255_1_alg».proof.Proof.Gen.KernelIdeal.Skeleton
import proofs.«125949_j1494648619255_1_alg».proof.Proof.AttentionRow
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.KernelRow

open Cert.KernelIdeal Cert.KernelIdeal.Gen
open Idealize.ShloMosaic Idealize.ShloMosaic.ValueIdx Cert.AttentionRow

/-! ## The scores: queries against keys, contracted over the feature axis, batched over the tile's rows -/

theorem score_lhs_0 (i : S8x1x2048.Idx) (q : dot_S8x1x512_S8x2048x512_S8x1x2048_2_2_1_1_0_0.contr.Idx) :
    (dot_S8x1x512_S8x2048x512_S8x1x2048_2_2_1_1_0_0.lhsIdx i q 0).val = (i 0).val := by
  unfold DotDims.lhsIdx
  rw [dif_pos (show (0 : Fin S8x1x512.rank) ∈ dot_S8x1x512_S8x2048x512_S8x1x2048_2_2_1_1_0_0.lhsBatch by decide)]
  rfl
theorem score_lhs_1 (i : S8x1x2048.Idx) (q : dot_S8x1x512_S8x2048x512_S8x1x2048_2_2_1_1_0_0.contr.Idx) :
    (dot_S8x1x512_S8x2048x512_S8x1x2048_2_2_1_1_0_0.lhsIdx i q 1).val = (i 1).val := by
  unfold DotDims.lhsIdx
  rw [dif_neg (show ¬(1 : Fin S8x1x512.rank) ∈ dot_S8x1x512_S8x2048x512_S8x1x2048_2_2_1_1_0_0.lhsBatch by decide), dif_pos (show (1 : Fin S8x1x512.rank) ∈ dot_S8x1x512_S8x2048x512_S8x1x2048_2_2_1_1_0_0.lhsNonContracting by decide)]
  rfl
theorem score_lhs_2 (i : S8x1x2048.Idx) (q : dot_S8x1x512_S8x2048x512_S8x1x2048_2_2_1_1_0_0.contr.Idx) :
    (dot_S8x1x512_S8x2048x512_S8x1x2048_2_2_1_1_0_0.lhsIdx i q 2).val = (q ⟨0, by decide⟩).val :=
  dot_S8x1x512_S8x2048x512_S8x1x2048_2_2_1_1_0_0.lhsIdx_val_of_single rfl i q
theorem score_rhs_0 (i : S8x1x2048.Idx) (q : dot_S8x1x512_S8x2048x512_S8x1x2048_2_2_1_1_0_0.contr.Idx) :
    (dot_S8x1x512_S8x2048x512_S8x1x2048_2_2_1_1_0_0.rhsIdx i q 0).val = (i 0).val := by
  unfold DotDims.rhsIdx
  rw [dif_pos (show (0 : Fin S8x2048x512.rank) ∈ dot_S8x1x512_S8x2048x512_S8x1x2048_2_2_1_1_0_0.rhsBatch by decide)]
  rfl
theorem score_rhs_1 (i : S8x1x2048.Idx) (q : dot_S8x1x512_S8x2048x512_S8x1x2048_2_2_1_1_0_0.contr.Idx) :
    (dot_S8x1x512_S8x2048x512_S8x1x2048_2_2_1_1_0_0.rhsIdx i q 1).val = (i 2).val := by
  unfold DotDims.rhsIdx
  rw [dif_neg (show ¬(1 : Fin S8x2048x512.rank) ∈ dot_S8x1x512_S8x2048x512_S8x1x2048_2_2_1_1_0_0.rhsBatch by decide), dif_pos (show (1 : Fin S8x2048x512.rank) ∈ dot_S8x1x512_S8x2048x512_S8x1x2048_2_2_1_1_0_0.rhsNonContracting by decide)]
  rfl
theorem score_rhs_2 (i : S8x1x2048.Idx) (q : dot_S8x1x512_S8x2048x512_S8x1x2048_2_2_1_1_0_0.contr.Idx) :
    (dot_S8x1x512_S8x2048x512_S8x1x2048_2_2_1_1_0_0.rhsIdx i q 2).val = (q ⟨0, by decide⟩).val :=
  dot_S8x1x512_S8x2048x512_S8x1x2048_2_2_1_1_0_0.rhsIdx_val_of_single rfl i q

/-- The score of key position `s` for tile row `p`: the query's inner product with that key. -/
theorem score_at (q : FVec Ideal S8x1x512 .bf16) (x : FVec Ideal S8x2048x512 .bf16) (p : Fin 8) (s : Fin 2048) :
    matmul dot_S8x1x512_S8x2048x512_S8x1x2048_2_2_1_1_0_0 none q x (constant S8x1x2048 .f32 0x00000000#32) (ix3 p (0 : Fin 1) s)
      = ∑ d : Fin 512, q (ix3 p (0 : Fin 1) d) * x (ix3 p s d) := by
  simp only [matmul]
  rw [Ideal.matmul_constant_zero_apply, ← Equiv.sum_comp (ValueIdx.contrEquiv1 dot_S8x1x512_S8x2048x512_S8x1x2048_2_2_1_1_0_0 512 rfl rfl).symm]
  refine Finset.sum_congr rfl fun k _ => ?_
  have hk := ValueIdx.contrEquiv1_symm_val dot_S8x1x512_S8x2048x512_S8x1x2048_2_2_1_1_0_0 512 rfl rfl k
  have el : dot_S8x1x512_S8x2048x512_S8x1x2048_2_2_1_1_0_0.lhsIdx (ix3 p (0 : Fin 1) s) ((ValueIdx.contrEquiv1 dot_S8x1x512_S8x2048x512_S8x1x2048_2_2_1_1_0_0 512 rfl rfl).symm k) = ix3 p (0 : Fin 1) k := funext fun a => Fin.ext (by
    match a with
    | ⟨0, _⟩ => exact score_lhs_0 _ _
    | ⟨1, _⟩ => exact score_lhs_1 _ _
    | ⟨2, _⟩ => exact (score_lhs_2 _ _).trans hk)
  have er : dot_S8x1x512_S8x2048x512_S8x1x2048_2_2_1_1_0_0.rhsIdx (ix3 p (0 : Fin 1) s) ((ValueIdx.contrEquiv1 dot_S8x1x512_S8x2048x512_S8x1x2048_2_2_1_1_0_0 512 rfl rfl).symm k) = ix3 p s k := funext fun a => Fin.ext (by
    match a with
    | ⟨0, _⟩ => exact score_rhs_0 _ _
    | ⟨1, _⟩ => exact score_rhs_1 _ _
    | ⟨2, _⟩ => exact (score_rhs_2 _ _).trans hk)
  rw [el, er]

/-! ## The two reductions over the key axis, and the keep-dims broadcast back along it -/

/-- A tile row's largest score: the lane maximum over the key axis is the fold of `max` from −∞ over the positions. -/
theorem rowmax_at (v : FVec Ideal S8x1x2048 .f32) (h : S8x1x2048.Reduces [2] S8x1) (hφ : FKind.Formats .f32)
    (hacc : (0xFF800000#32 : BitVec 32) = FKind.maximumf.neutral .f32 hφ) (p : Fin 8) :
    multiReduction .maximumf [2] S8x1 v 0xFF800000#32 h hφ hacc (ix2 p (0 : Fin 1))
      = (Finset.univ : Finset (Fin 2048)).fold max negInf (fun s => v (ix3 p (0 : Fin 1) s)) := by
  refine (Ideal.multiReduction_maximumf_single v _ h hφ hacc (ix2 p (0 : Fin 1))).trans ?_
  refine Finset.fold_congr fun s _ => ?_
  exact congrArg v (funext fun a => Fin.ext (by match a with | ⟨0, _⟩ => rfl | ⟨1, _⟩ => rfl | ⟨2, _⟩ => rfl))

/-- A tile row's weights summed: the lane sum over the key axis. -/
theorem rowsum_at (v : FVec Ideal S8x1x2048 .f32) (h : S8x1x2048.Reduces [2] S8x1) (hφ : FKind.Formats .f32)
    (hacc : (0x00000000#32 : BitVec 32) = FKind.add.neutral .f32 hφ) (p : Fin 8) :
    multiReduction .add [2] S8x1 v 0x00000000#32 h hφ hacc (ix2 p (0 : Fin 1)) = ∑ s : Fin 2048, v (ix3 p (0 : Fin 1) s) := by
  refine (Ideal.multiReduction_add_single v _ h hφ hacc (ix2 p (0 : Fin 1))).trans ?_
  exact Finset.sum_congr rfl fun s _ => congrArg v (funext fun a => Fin.ext (by match a with | ⟨0, _⟩ => rfl | ⟨1, _⟩ => rfl | ⟨2, _⟩ => rfl))

/-- A per-row value (8 × 1) given a unit key axis and broadcast along the keys reads, at (p, 0, s), the row's value. -/
theorem keepdims_at {α : Type} (v : S8x1.Idx → α) (h1 : S8x1.ShapeCasts S8x1x1) (h2 : S8x1x1.Broadcasts S8x1x2048) (p : Fin 8) (s : Fin 2048) :
    broadcastTo S8x1x2048 (shapeCast S8x1x1 v h1) h2 (ix3 p (0 : Fin 1) s) = v (ix2 p (0 : Fin 1)) := by
  refine (broadcastTo_apply (shapeCast S8x1x1 v h1) h2 (ix3 p (0 : Fin 1) s) (ix3 p (0 : Fin 1) (0 : Fin 1)) fun a => ?_).trans
    (shapeCast_apply v h1 (ix3 p (0 : Fin 1) (0 : Fin 1)) (ix2 p (0 : Fin 1)) ?_)
  · match a with
    | ⟨0, _⟩ => show p.val = if (8 : Nat) = 1 then 0 else p.val; rw [if_neg (by decide)]
    | ⟨1, _⟩ => show 0 = if (1 : Nat) = 1 then 0 else 0; rw [if_pos rfl]
    | ⟨2, _⟩ => show 0 = if (1 : Nat) = 1 then 0 else s.val; rw [if_pos rfl]
  · rw [Shape.rowMajor_val_two, Shape.rowMajor_val_three]
    show p.val * 1 + 0 = (p.val * 1 + 0) * 1 + 0
    omega

/-! ## The attention output: weights against values, contracted over the key axis -/

theorem out_lhs_0 (i : S8x1x512.Idx) (q : dot_S8x1x2048_S8x2048x512_S8x1x512_2_1_1_2_0_0.contr.Idx) :
    (dot_S8x1x2048_S8x2048x512_S8x1x512_2_1_1_2_0_0.lhsIdx i q 0).val = (i 0).val := by
  unfold DotDims.lhsIdx
  rw [dif_pos (show (0 : Fin S8x1x2048.rank) ∈ dot_S8x1x2048_S8x2048x512_S8x1x512_2_1_1_2_0_0.lhsBatch by decide)]
  rfl
theorem out_lhs_1 (i : S8x1x512.Idx) (q : dot_S8x1x2048_S8x2048x512_S8x1x512_2_1_1_2_0_0.contr.Idx) :
    (dot_S8x1x2048_S8x2048x512_S8x1x512_2_1_1_2_0_0.lhsIdx i q 1).val = (i 1).val := by
  unfold DotDims.lhsIdx
  rw [dif_neg (show ¬(1 : Fin S8x1x2048.rank) ∈ dot_S8x1x2048_S8x2048x512_S8x1x512_2_1_1_2_0_0.lhsBatch by decide), dif_pos (show (1 : Fin S8x1x2048.rank) ∈ dot_S8x1x2048_S8x2048x512_S8x1x512_2_1_1_2_0_0.lhsNonContracting by decide)]
  rfl
theorem out_lhs_2 (i : S8x1x512.Idx) (q : dot_S8x1x2048_S8x2048x512_S8x1x512_2_1_1_2_0_0.contr.Idx) :
    (dot_S8x1x2048_S8x2048x512_S8x1x512_2_1_1_2_0_0.lhsIdx i q 2).val = (q ⟨0, by decide⟩).val :=
  dot_S8x1x2048_S8x2048x512_S8x1x512_2_1_1_2_0_0.lhsIdx_val_of_single rfl i q
theorem out_rhs_0 (i : S8x1x512.Idx) (q : dot_S8x1x2048_S8x2048x512_S8x1x512_2_1_1_2_0_0.contr.Idx) :
    (dot_S8x1x2048_S8x2048x512_S8x1x512_2_1_1_2_0_0.rhsIdx i q 0).val = (i 0).val := by
  unfold DotDims.rhsIdx
  rw [dif_pos (show (0 : Fin S8x2048x512.rank) ∈ dot_S8x1x2048_S8x2048x512_S8x1x512_2_1_1_2_0_0.rhsBatch by decide)]
  rfl
theorem out_rhs_1 (i : S8x1x512.Idx) (q : dot_S8x1x2048_S8x2048x512_S8x1x512_2_1_1_2_0_0.contr.Idx) :
    (dot_S8x1x2048_S8x2048x512_S8x1x512_2_1_1_2_0_0.rhsIdx i q 1).val = (q ⟨0, by decide⟩).val :=
  dot_S8x1x2048_S8x2048x512_S8x1x512_2_1_1_2_0_0.rhsIdx_val_of_single rfl i q
theorem out_rhs_2 (i : S8x1x512.Idx) (q : dot_S8x1x2048_S8x2048x512_S8x1x512_2_1_1_2_0_0.contr.Idx) :
    (dot_S8x1x2048_S8x2048x512_S8x1x512_2_1_1_2_0_0.rhsIdx i q 2).val = (i 2).val := by
  unfold DotDims.rhsIdx
  rw [dif_neg (show ¬(2 : Fin S8x2048x512.rank) ∈ dot_S8x1x2048_S8x2048x512_S8x1x512_2_1_1_2_0_0.rhsBatch by decide), dif_pos (show (2 : Fin S8x2048x512.rank) ∈ dot_S8x1x2048_S8x2048x512_S8x1x512_2_1_1_2_0_0.rhsNonContracting by decide)]
  rfl

/-- The attention output of tile row `p`, feature `d`: the weights against the values, summed over the positions. -/
theorem out_at (a : FVec Ideal S8x1x2048 .bf16) (x : FVec Ideal S8x2048x512 .bf16) (p : Fin 8) (d : Fin 512) :
    matmul dot_S8x1x2048_S8x2048x512_S8x1x512_2_1_1_2_0_0 none a x (constant S8x1x512 .f32 0x00000000#32) (ix3 p (0 : Fin 1) d)
      = ∑ s : Fin 2048, a (ix3 p (0 : Fin 1) s) * x (ix3 p s d) := by
  simp only [matmul]
  rw [Ideal.matmul_constant_zero_apply, ← Equiv.sum_comp (ValueIdx.contrEquiv1 dot_S8x1x2048_S8x2048x512_S8x1x512_2_1_1_2_0_0 2048 rfl rfl).symm]
  refine Finset.sum_congr rfl fun k _ => ?_
  have hk := ValueIdx.contrEquiv1_symm_val dot_S8x1x2048_S8x2048x512_S8x1x512_2_1_1_2_0_0 2048 rfl rfl k
  have el : dot_S8x1x2048_S8x2048x512_S8x1x512_2_1_1_2_0_0.lhsIdx (ix3 p (0 : Fin 1) d) ((ValueIdx.contrEquiv1 dot_S8x1x2048_S8x2048x512_S8x1x512_2_1_1_2_0_0 2048 rfl rfl).symm k) = ix3 p (0 : Fin 1) k := funext fun a => Fin.ext (by
    match a with
    | ⟨0, _⟩ => exact out_lhs_0 _ _
    | ⟨1, _⟩ => exact out_lhs_1 _ _
    | ⟨2, _⟩ => exact (out_lhs_2 _ _).trans hk)
  have er : dot_S8x1x2048_S8x2048x512_S8x1x512_2_1_1_2_0_0.rhsIdx (ix3 p (0 : Fin 1) d) ((ValueIdx.contrEquiv1 dot_S8x1x2048_S8x2048x512_S8x1x512_2_1_1_2_0_0 2048 rfl rfl).symm k) = ix3 p k d := funext fun a => Fin.ext (by
    match a with
    | ⟨0, _⟩ => exact out_rhs_0 _ _
    | ⟨1, _⟩ => exact (out_rhs_1 _ _).trans hk
    | ⟨2, _⟩ => exact out_rhs_2 _ _)
  rw [el, er]

/-- Dropping the unit query axis: the (8 × 1 × 512) output as (8 × 512). -/
theorem squeeze_at {α : Type} (v : S8x1x512.Idx → α) (h : S8x1x512.ShapeCasts S8x512) (p : Fin 8) (d : Fin 512) :
    shapeCast S8x512 v h (ix2 p d) = v (ix3 p (0 : Fin 1) d) := by
  refine shapeCast_apply v h (ix2 p d) (ix3 p (0 : Fin 1) d) ?_
  rw [Shape.rowMajor_val_three, Shape.rowMajor_val_two]
  show (p.val * 1 + 0) * 512 + d.val = p.val * 512 + d.val
  omega

/-! ## The classifier product and the bias -/

theorem proj_lhs_0 (i : S8x2.Idx) (q : dot_S8x512_S512x2_S8x2_1_0_0_1_n_n.contr.Idx) :
    (dot_S8x512_S512x2_S8x2_1_0_0_1_n_n.lhsIdx i q 0).val = (i 0).val := by
  unfold DotDims.lhsIdx
  rw [dif_neg (show ¬(0 : Fin S8x512.rank) ∈ dot_S8x512_S512x2_S8x2_1_0_0_1_n_n.lhsBatch by decide), dif_pos (show (0 : Fin S8x512.rank) ∈ dot_S8x512_S512x2_S8x2_1_0_0_1_n_n.lhsNonContracting by decide)]
  rfl
theorem proj_lhs_1 (i : S8x2.Idx) (q : dot_S8x512_S512x2_S8x2_1_0_0_1_n_n.contr.Idx) :
    (dot_S8x512_S512x2_S8x2_1_0_0_1_n_n.lhsIdx i q 1).val = (q ⟨0, by decide⟩).val :=
  dot_S8x512_S512x2_S8x2_1_0_0_1_n_n.lhsIdx_val_of_single rfl i q
theorem proj_rhs_0 (i : S8x2.Idx) (q : dot_S8x512_S512x2_S8x2_1_0_0_1_n_n.contr.Idx) :
    (dot_S8x512_S512x2_S8x2_1_0_0_1_n_n.rhsIdx i q 0).val = (q ⟨0, by decide⟩).val :=
  dot_S8x512_S512x2_S8x2_1_0_0_1_n_n.rhsIdx_val_of_single rfl i q
theorem proj_rhs_1 (i : S8x2.Idx) (q : dot_S8x512_S512x2_S8x2_1_0_0_1_n_n.contr.Idx) :
    (dot_S8x512_S512x2_S8x2_1_0_0_1_n_n.rhsIdx i q 1).val = (i 1).val := by
  unfold DotDims.rhsIdx
  rw [dif_neg (show ¬(1 : Fin S512x2.rank) ∈ dot_S8x512_S512x2_S8x2_1_0_0_1_n_n.rhsBatch by decide), dif_pos (show (1 : Fin S512x2.rank) ∈ dot_S8x512_S512x2_S8x2_1_0_0_1_n_n.rhsNonContracting by decide)]
  rfl

/-- The classifier product at (p, c): the pooled row against classifier column `c`. -/
theorem proj_at (o : FVec Ideal S8x512 .bf16) (w : FVec Ideal S512x2 .bf16) (p : Fin 8) (c : Fin 2) :
    matmul dot_S8x512_S512x2_S8x2_1_0_0_1_n_n none o w (constant S8x2 .f32 0x00000000#32) (ix2 p c)
      = ∑ d : Fin 512, o (ix2 p d) * w (ix2 d c) := by
  simp only [matmul]
  rw [Ideal.matmul_constant_zero_apply, ← Equiv.sum_comp (ValueIdx.contrEquiv1 dot_S8x512_S512x2_S8x2_1_0_0_1_n_n 512 rfl rfl).symm]
  refine Finset.sum_congr rfl fun k _ => ?_
  have hk := ValueIdx.contrEquiv1_symm_val dot_S8x512_S512x2_S8x2_1_0_0_1_n_n 512 rfl rfl k
  have el : dot_S8x512_S512x2_S8x2_1_0_0_1_n_n.lhsIdx (ix2 p c) ((ValueIdx.contrEquiv1 dot_S8x512_S512x2_S8x2_1_0_0_1_n_n 512 rfl rfl).symm k) = ix2 p k := funext fun a => Fin.ext (by
    match a with
    | ⟨0, _⟩ => exact proj_lhs_0 _ _
    | ⟨1, _⟩ => exact (proj_lhs_1 _ _).trans hk)
  have er : dot_S8x512_S512x2_S8x2_1_0_0_1_n_n.rhsIdx (ix2 p c) ((ValueIdx.contrEquiv1 dot_S8x512_S512x2_S8x2_1_0_0_1_n_n 512 rfl rfl).symm k) = ix2 k c := funext fun a => Fin.ext (by
    match a with
    | ⟨0, _⟩ => exact (proj_rhs_0 _ _).trans hk
    | ⟨1, _⟩ => exact proj_rhs_1 _ _)
  rw [el, er]

/-- The bias (2) as one row (1 × 2) broadcast down the tile's eight rows reads, at (p, c), entry `c`. -/
theorem bias_at {α : Type} (b : S2.Idx → α) (h1 : S2.ShapeCasts S1x2) (h2 : S1x2.Broadcasts S8x2) (p : Fin 8) (c : Fin 2) :
    broadcastTo S8x2 (shapeCast S1x2 b h1) h2 (ix2 p c) = b (ix1 c) :=
  (broadcastTo_1b_ab_apply (shapeCast S1x2 b h1) h2 p c).trans (shapeCast_a_1a_apply b h1 (0 : Fin 1) c)

/-- The exponential of a vector read at an index. -/
theorem exp_at {s : Shape} (v : FVec Ideal s .f32) (i : s.Idx) : exp v i = Ideal.exp (v i) := rfl

/-! ## The softmax over the key axis, for any score vector -/

/-- The unnormalised weight of position `s` in tile row `p`: the exponential of the score less the row's largest. -/
theorem weight_at (sc : FVec Ideal S8x1x2048 .f32) (h : S8x1x2048.Reduces [2] S8x1) (hφ : FKind.Formats .f32)
    (hacc : (0xFF800000#32 : BitVec 32) = FKind.maximumf.neutral .f32 hφ) (h1 : S8x1.ShapeCasts S8x1x1) (h2 : S8x1x1.Broadcasts S8x1x2048)
    (p : Fin 8) (s : Fin 2048) :
    exp (subf sc (broadcastTo S8x1x2048 (shapeCast S8x1x1 (maximumf (broadcast S8x1 (Scalar.ofBits .f32 0xFF800000#32))
        (multiReduction .maximumf [2] S8x1 sc 0xFF800000#32 h hφ hacc)) h1) h2)) (ix3 p (0 : Fin 1) s)
      = Ideal.exp (sc (ix3 p (0 : Fin 1) s) - max negInf ((Finset.univ : Finset (Fin 2048)).fold max negInf (fun s' => sc (ix3 p (0 : Fin 1) s')))) := by
  rw [exp_at, subf_apply, keepdims_at, maximumf_apply, broadcast_apply, rowmax_at]
  rfl

/-- The softmax quotient at (p, 0, s): a weight over the sum of the row's weights. -/
theorem quotient_at (e : FVec Ideal S8x1x2048 .f32) (h : S8x1x2048.Reduces [2] S8x1) (hφ : FKind.Formats .f32)
    (hacc : (0x00000000#32 : BitVec 32) = FKind.add.neutral .f32 hφ) (h1 : S8x1.ShapeCasts S8x1x1) (h2 : S8x1x1.Broadcasts S8x1x2048)
    (p : Fin 8) (s : Fin 2048) :
    divf e (broadcastTo S8x1x2048 (shapeCast S8x1x1 (multiReduction .add [2] S8x1 e 0x00000000#32 h hφ hacc) h1) h2) (ix3 p (0 : Fin 1) s)
      = Ideal.div (e (ix3 p (0 : Fin 1) s)) (∑ s' : Fin 2048, e (ix3 p (0 : Fin 1) s')) := by
  rw [divf_apply, keepdims_at, rowsum_at]

/-- The tile's weight at (p, 0, s), with the scores the first matrix product: row p's weight of position s. -/
theorem weight_eq (v0 : FVec Ideal S8x1x512 .bf16) (v2 : FVec Ideal S8x2048x512 .bf16) (h : S8x1x2048.Reduces [2] S8x1) (hφ : FKind.Formats .f32)
    (hacc : (0xFF800000#32 : BitVec 32) = FKind.maximumf.neutral .f32 hφ) (h1 : S8x1.ShapeCasts S8x1x1) (h2 : S8x1x1.Broadcasts S8x1x2048)
    (p : Fin 8) (s : Fin 2048) :
    exp (subf (matmul dot_S8x1x512_S8x2048x512_S8x1x2048_2_2_1_1_0_0 none v0 v2 (constant S8x1x2048 .f32 0x00000000#32))
        (broadcastTo S8x1x2048 (shapeCast S8x1x1 (maximumf (broadcast S8x1 (Scalar.ofBits .f32 0xFF800000#32))
          (multiReduction .maximumf [2] S8x1 (matmul dot_S8x1x512_S8x2048x512_S8x1x2048_2_2_1_1_0_0 none v0 v2 (constant S8x1x2048 .f32 0x00000000#32))
            0xFF800000#32 h hφ hacc)) h1) h2)) (ix3 p (0 : Fin 1) s)
      = weight (fun d => v0 (ix3 p (0 : Fin 1) d)) (fun s d => v2 (ix3 p s d)) s := by
  rw [weight_at]
  simp only [score_at]
  rfl

/-! ## The body's stored value at (p, c) -/

/-- THE STORED VALUE of the body at tile row `p`, class `c`, from the four loaded blocks: the row's logit. -/
theorem payload_at (v0 : Vec Ideal S8x1x512 .bf16) (v2 : Vec Ideal S8x2048x512 .bf16) (v20 : Vec Ideal S512x2 .bf16) (v23 : Vec Ideal S2 .f32)
    (p : Fin 8) (c : Fin 2) :
    k0_pay1 (F := Ideal) v0 v2 v20 v23 (ix2 p c)
      = rowLogit (fun d => v0 (ix3 p (0 : Fin 1) d)) (fun s d => v2 (ix3 p s d)) (fun d => v20 (ix2 d c)) (v23 (ix1 c)) := by
  unfold k0_pay1
  dsimp only
  rw [shapeCast_self v0, shapeCast_self v2, shapeCast_self v20]
  rw [addf_apply, bias_at, proj_at]
  unfold rowLogit
  refine congrArg (· + v23 (ix1 c)) (Finset.sum_congr rfl fun d _ => ?_)
  refine congrArg (· * v20 (ix2 d c)) ?_
  rw [truncf_apply, squeeze_at, out_at]
  unfold pooled
  refine Finset.sum_congr rfl fun s _ => ?_
  refine congrArg (· * v2 (ix3 p s d)) ?_
  rw [truncf_apply]
  refine (quotient_at _ _ _ _ _ _ p s).trans ?_
  unfold attn
  refine congr (congrArg Ideal.div ?_) (Finset.sum_congr rfl fun s' _ => ?_)
  · exact weight_eq v0 v2 _ _ _ _ _ p s
  · exact weight_eq v0 v2 _ _ _ _ _ p s'

end Cert.KernelIdeal.KernelRow

end
-- ==== Proof.KernelArray.lean ====
/-
  From one tile's stored values to the whole result array of the kernel.

  The grid has four points; point t works on batch rows 8t … 8t+7. Its query block is rows 8t … 8t+7 of the sliced first
  tokens, its key/value block the same rows of the embedded sequences, and the classifier and the bias are whole at every
  point. So what point t stores at (p, c) — the row logit of the tile's row p (KernelRow) — is the logit of batch row
  8t+p: block t of ONE function of the argument arrays, `AttentionRow.logits` of the embedded sequences, the classifier
  and the bias. The four blocks tile the [32, 2] result, so after the run the result array IS that function.
-/
import proofs.«125949_j1494648619255_1_alg».proof.Proof.Gen.KernelIdeal.Value
import proofs.«125949_j1494648619255_1_alg».proof.Proof.KernelRow
import Idealize.ShloMosaic.Lib.StableHlo.Run

noncomputable section

open scoped BigOperators

namespace Cert.KernelIdeal.KernelArray

open Cert.KernelIdeal Cert.KernelIdeal.Gen
open Idealize.ShloMosaic Idealize.ShloMosaic.TcCoe Idealize.SL.Sem Idealize.ShloMosaic.ValueIdx Cert.AttentionRow
open Idealize.ShloMosaic.Pipeline (Dat)

variable (m : (ℓ : Loc nD τ sig) → Buf (Elt Ideal) ℓ) (ρ : Dev nD → PrngReg)

/-! ## What the region finds in its windows' arrays -/

/-- The embedded sequences (batch × position × feature): the table's rows looked up at the token ids, an id below zero
    counted from the table's end. -/
def embedded (c : Dev nD) : FVec Ideal S32x2048x512 .f32 :=
  Host.gather gather_S32000x512_S32x2048x1_S32x2048x512_2_0_n_n_0_2_1512 (m ((c.tc : Thread nD τ).loc main_arg1))
    (broadcastInDim S32x2048x1 ![0, 1] bcast_S32x2048_S32x2048x1_0_1
      (select (cmpi .slt (m ((c.tc : Thread nD τ).loc main_arg0)) (broadcastInDim S32x2048 ![] bcast_S_S32x2048 (constantI S_ 32 0#32)))
        (addi (m ((c.tc : Thread nD τ).loc main_arg0)) (broadcastInDim S32x2048 ![] bcast_S_S32x2048 (constantI S_ 32 32000#32)))
        (m ((c.tc : Thread nD τ).loc main_arg0))))

/-- The key/value window's array holds the embedded sequences (the change of float format is the identity here). -/
theorem V_embedded (c : Dev nD) : (V m c main_v7 : S32x2048x512.Idx → EReal) = embedded m c := by
  dsimp only [Gen.V, Gen.hostOps0]; after_results; rfl

/-- The query window's array holds their position-0 slice. -/
theorem V_queries (c : Dev nD) :
    (V m c main_v8 : S32x1x512.Idx → EReal) = extractStridedSlice S32x1x512 ![0, 0, 0] (embedded m c) slices_S32x2048x512_S32x1x512_0_0_0 := by
  dsimp only [Gen.V, Gen.hostOps0]; after_results; rfl

/-- The classifier window's array holds the classifier transposed. -/
theorem V_clsT (c : Dev nD) :
    (V m c main_v10 : S512x2.Idx → EReal) = transpose S512x2 [1, 0] (m ((c.tc : Thread nD τ).loc main_arg2)) transposes_S2x512_S512x2_1_0 := by
  dsimp only [Gen.V, Gen.hostOps0]; after_results; rfl

/-! ## The blocks at a grid point -/

/-- The printed index maps over the four points: the query, key/value and result windows move with the point along the
    batch axis; the classifier and the bias stay. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 1) = 0
    ∧ win0_4.index t (0 : Fin 2) = t.val ∧ win0_4.index t (1 : Fin 2) = 0 :=
  (by decide +kernel : ∀ t : Fin grid0.N, _)

/-- The key/value block at point `t`, row `p`, is batch row 8t+p of the embedded sequences. -/
theorem keys_at (c : Dev nD) (t : Fin cfg0.N) (p : Fin 8) (s : Fin 2048) (d : Fin 512) (r : Fin 32) (hr : r.val = 8 * t.val + p.val) :
    iblk m c 1 t (ix3 p s d) = embedded m c (ix3 r s d) := by
  unfold iblk
  show V m c main_v7 (((cfg0.win 1).blk t).view.emb (ix3 p s d)) = _
  rw [V_embedded]
  refine congrArg (embedded m c) (funext fun a => Fin.ext ?_)
  obtain ⟨_, _, _, e0, e1, e2, _⟩ := idx_facts t
  match a with
  | ⟨0, _⟩ => show win0_1.index t (0 : Fin 3) * 8 + 1 * p.val = r.val; omega
  | ⟨1, _⟩ => show win0_1.index t (1 : Fin 3) * 2048 + 1 * s.val = s.val; omega
  | ⟨2, _⟩ => show win0_1.index t (2 : Fin 3) * 512 + 1 * d.val = d.val; omega

/-- The query block at point `t`, row `p`, is the position-0 token of batch row 8t+p. -/
theorem query_at (c : Dev nD) (t : Fin cfg0.N) (p : Fin 8) (d : Fin 512) (r : Fin 32) (hr : r.val = 8 * t.val + p.val) :
    iblk m c 0 t (ix3 p (0 : Fin 1) d) = embedded m c (ix3 r (0 : Fin 2048) d) := by
  unfold iblk
  show V m c main_v8 (((cfg0.win 0).blk t).view.emb (ix3 p (0 : Fin 1) d)) = _
  rw [V_queries]
  obtain ⟨e0, e1, e2, _⟩ := idx_facts t
  unfold extractStridedSlice
  refine congrArg (embedded m c) (funext fun a => Fin.ext ?_)
  match a with
  | ⟨0, _⟩ => show 0 + (win0_0.index t (0 : Fin 3) * 8 + 1 * p.val) = r.val; omega
  | ⟨1, _⟩ => show 0 + (win0_0.index t (1 : Fin 3) * 1 + 1 * 0) = 0; omega
  | ⟨2, _⟩ => show 0 + (win0_0.index t (2 : Fin 3) * 512 + 1 * d.val) = d.val; omega

/-- The classifier block, whole at every point: entry (d, c) is the classifier's (c, d). -/
theorem clsT_at (c : Dev nD) (t : Fin cfg0.N) (d : Fin 512) (k : Fin 2) :
    iblk m c 2 t (ix2 d k) = m ((c.tc : Thread nD τ).loc main_arg2) (ix2 k d) := by
  unfold iblk
  show V m c main_v10 (((cfg0.win 2).blk t).view.emb (ix2 d k)) = _
  rw [V_clsT]
  obtain ⟨_, _, _, _, _, _, e0, e1, _⟩ := idx_facts t
  refine transpose_apply [1, 0] (m ((c.tc : Thread nD τ).loc main_arg2)) transposes_S2x512_S512x2_1_0 _ (ix2 k d) fun b => ?_
  match b with
  | ⟨0, _⟩ => show d.val = win0_2.index t (0 : Fin 2) * 512 + 1 * d.val; omega
  | ⟨1, _⟩ => show k.val = win0_2.index t (1 : Fin 2) * 2 + 1 * k.val; omega

/-- The bias block, whole at every point. -/
theorem bias_blk_at (c : Dev nD) (t : Fin cfg0.N) (k : Fin 2) :
    iblk m c 3 t (ix1 k) = m ((c.tc : Thread nD τ).loc main_arg3) (ix1 k) := by
  unfold iblk
  show V m c main_arg3 (((cfg0.win 3).blk t).view.emb (ix1 k)) = _
  rw [V_main_arg3]
  obtain ⟨_, _, _, _, _, _, _, _, e0, _⟩ := idx_facts t
  refine congrArg (m ((c.tc : Thread nD τ).loc main_arg3)) (funext fun a => Fin.ext ?_)
  match a with
  | ⟨0, _⟩ => show win0_3.index t (0 : Fin 1) * 2 + 1 * k.val = k.val; omega

/-! ## The result array -/

/-- The kernel's result as ONE function of the argument arrays: the logits of the embedded sequences. -/
def result (c : Dev nD) : S32x2.Idx → EReal :=
  logits (embedded m c) (m ((c.tc : Thread nD τ).loc main_arg2)) (m ((c.tc : Thread nD τ).loc main_arg3))

theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The grid has four points. -/
theorem point_lt (t : Fin cfg0.N) : t.val < 4 := by
  have h : t.val < grid0.N := t.isLt
  rw [N_0] at h
  exact h

/-- The four input blocks at point `t`, by their literal shapes. -/
abbrev qblk (c : Dev nD) (t : Fin cfg0.N) : Vec Ideal S8x1x512 .bf16 := iblk m c 0 t
abbrev xblk (c : Dev nD) (t : Fin cfg0.N) : Vec Ideal S8x2048x512 .bf16 := iblk m c 1 t
abbrev wblk (c : Dev nD) (t : Fin cfg0.N) : Vec Ideal S512x2 .bf16 := iblk m c 2 t
abbrev bblk (c : Dev nD) (t : Fin cfg0.N) : Vec Ideal S2 .f32 := iblk m c 3 t

/-- What point `t` writes back is the body's stored value of the point's four blocks. -/
theorem stored_eq (c : Dev nD) (t : Fin cfg0.N) :
    (dats m 0 c).flushed 4 t = (cfg0.win 4).cut (grid0.coords t) (k0_pay1 (qblk m c t) (xblk m c t) (wblk m c t) (bblk m c t)) := by
  rw [Value.flushed4]
  unfold out0_4
  rw [View.canon_unit_zero hz2]
  simp only [View.ld_unit_zero (S := S8x1x512) hz3, View.ld_unit_zero (S := S8x2048x512) hz3, View.ld_unit_zero (S := S512x2) hz2,
    View.ld_unit_zero (S := S2) hz1]

/-- A row's logit depends only on the entries of its query, keys/values, classifier column and bias. -/
theorem rowLogit_congr {q q' : Fin 512 → EReal} {x x' : Fin 2048 → Fin 512 → EReal} {w w' : Fin 512 → EReal} {b b' : EReal}
    (hq : ∀ d, q d = q' d) (hx : ∀ s d, x s d = x' s d) (hw : ∀ d, w d = w' d) (hb : b = b') :
    rowLogit q x w b = rowLogit q' x' w' b' := by
  obtain rfl : q = q' := funext hq
  obtain rfl : x = x' := funext fun s => funext (hx s)
  obtain rfl : w = w' := funext hw
  rw [hb]

/-- The stored value of point `t` at (p, k) is the logit of batch row 8t+p, class k. -/
theorem tile_eq (c : Dev nD) (t : Fin cfg0.N) (p : Fin 8) (k : Fin 2) (r : Fin 32) (hr : r.val = 8 * t.val + p.val) :
    k0_pay1 (qblk m c t) (xblk m c t) (wblk m c t) (bblk m c t) (ix2 p k) = result m c (ix2 r k) := by
  refine (KernelRow.payload_at (qblk m c t) (xblk m c t) (wblk m c t) (bblk m c t) p k).trans ?_
  show _ = rowLogit (fun d => embedded m c (ix3 r (0 : Fin 2048) d)) (fun s d => embedded m c (ix3 r s d))
    (fun d => m ((c.tc : Thread nD τ).loc main_arg2) (ix2 k d)) (m ((c.tc : Thread nD τ).loc main_arg3) (ix1 k))
  exact rowLogit_congr (fun d => query_at m c t p d r hr) (fun s d => keys_at m c t p s d r hr) (fun d => clsT_at m c t d k)
    (bias_blk_at m c t k)

/-- WHAT POINT `t` WRITES BACK is block `t` of `result`. -/
theorem flushed_eq (c : Dev nD) (t : Fin cfg0.N) :
    (dats m 0 c).flushed 4 t = ((cfg0.win 4).blk t).view.read (Elt Ideal) (result m c) := by
  rw [stored_eq]
  refine funext fun (j : S8x2.Idx) => ?_
  obtain ⟨p, k, rfl⟩ : ∃ (p : Fin 8) (k : Fin 2), j = ix2 p k := ⟨j 0, j 1, eq_ix2 j⟩
  have ht : t.val < 4 := point_lt t
  have hp : p.val < 8 := p.isLt
  obtain ⟨_, _, _, _, _, _, _, _, _, e0, e1⟩ := idx_facts t
  have hemb : ((cfg0.win 4).blk t).view.emb (ix2 p k) = ix2 (⟨8 * t.val + p.val, by omega⟩ : Fin 32) k := by
    funext a; apply Fin.ext
    match a with
    | ⟨0, _⟩ => show win0_4.index t (0 : Fin 2) * 8 + 1 * p.val = 8 * t.val + p.val; omega
    | ⟨1, _⟩ => show win0_4.index t (1 : Fin 2) * 2 + 1 * k.val = k.val; omega
  show k0_pay1 (qblk m c t) (xblk m c t) (wblk m c t) (bblk m c t) (ix2 p k) = result m c (((cfg0.win 4).blk t).view.emb (ix2 p k))
  rw [hemb]
  exact tile_eq m c t p k _ rfl

/-- An index of the result is in point `t`'s block iff each coordinate is in the block's range on its axis. -/
theorem mem_blk (t : Fin cfg0.N) (i : S32x2.Idx) :
    i ∈ ((cfg0.win 4).blk t).view.set ↔ ∀ a : Fin 2, win0_4.index t a * S8x2.size a ≤ (i a).val ∧ (i a).val < win0_4.index t a * S8x2.size a + S8x2.size a := by
  show i ∈ ((View.whole main_v11).slice (win0_4.rect t)).set ↔ _
  rw [View.set_slice_whole, Rect.mem_set_unit]
  exact Iff.rfl

/-- The four blocks tile the result: batch row `r` is in the block of point `r / 8`. -/
theorem cover (i : S32x2.Idx) : ∃ t : Fin cfg0.N, (cfg0.win 4).flush t = true ∧ i ∈ ((cfg0.win 4).blk t).view.set := by
  have hi0 : (i 0).val < 32 := (i 0).isLt
  have hi1 : (i 1).val < 2 := (i 1).isLt
  have hlt : (i 0).val / 8 < grid0.N := by rw [N_0]; omega
  refine ⟨⟨(i 0).val / 8, hlt⟩, flush0_4 _, ?_⟩
  rw [mem_blk]
  obtain ⟨_, _, _, _, _, _, _, _, _, e0, e1⟩ := idx_facts ⟨(i 0).val / 8, hlt⟩
  have e0' : win0_4.index ⟨(i 0).val / 8, hlt⟩ (0 : Fin 2) = (i 0).val / 8 := e0
  intro a
  match a with
  | ⟨0, _⟩ =>
    show win0_4.index ⟨(i 0).val / 8, _⟩ (0 : Fin 2) * 8 ≤ (i 0).val ∧ (i 0).val < win0_4.index ⟨(i 0).val / 8, _⟩ (0 : Fin 2) * 8 + 8
    omega
  | ⟨1, _⟩ =>
    show win0_4.index ⟨(i 0).val / 8, _⟩ (1 : Fin 2) * 2 ≤ (i 1).val ∧ (i 1).val < win0_4.index ⟨(i 0).val / 8, _⟩ (1 : Fin 2) * 2 + 2
    omega

/-- THE RESULT ARRAY after the run is `result`. -/
theorem final (c : Dev nD) : (dats m 0 c).arrAt 4 cfg0.N = result m c :=
  (dats m 0 c).arrAt_eq_of_cover 4 (result m c) (fun t _ => flushed_eq m c t) cover

/-- The kernel's run with its result array named: `result` of the arguments, which end unchanged. -/
theorem run : θ_run defs (onTc (τ := τ) (main (F := Ideal))) ⟨m, fun _ => 0, ρ⟩ fun r => ∀ c : Dev nD,
      r.2.mem ((c : Thread nD τ).loc main_v11) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.KernelArray

end
-- ==== Proof.ReferenceRow.lean ====
/-
  The reference, read at coordinates. With X the gathered embeddings (batch × position × feature; the table's rows
  looked up at the token ids, kept whole: both programs look up with the same indices), each stage of the reference's
  full self-attention is read at an index: the score matrix S[r, s, t] = ∑ d, X[r, s, d] · X[r, t, d], its row maxima,
  the exponentials, their row sums, the quotient, the product with the values, the slice of query row 0, the
  classifier product and the bias. At query row 0 the composition is `AttentionRow.logitAt`.
-/
import proofs.«125949_j1494648619255_1_alg».proof.Proof.Gen.ReferenceIdeal.Read
import proofs.«125949_j1494648619255_1_alg».proof.Proof.AttentionRow

noncomputable section

open scoped BigOperators

namespace Cert.ReferenceIdeal.RefRow

open Cert.ReferenceIdeal Cert.ReferenceIdeal.Gen Cert.ReferenceIdeal.Read
open Idealize.ShloMosaic Idealize.ShloMosaic.ValueIdx Cert.AttentionRow

variable (x0 : (⟨S32x2048, .i32⟩ : BufTy).Contents (Elt Ideal)) (x1 : (⟨S32000x512, .f32⟩ : BufTy).Contents (Elt Ideal))
variable (x2 : (⟨S2x512, .f32⟩ : BufTy).Contents (Elt Ideal)) (x3 : (⟨S2, .f32⟩ : BufTy).Contents (Elt Ideal))

/-- The score of key `t` for query `s` in batch row `r`: the inner product of the two embedded tokens. -/
theorem score_at (r : Fin 32) (s t : Fin 2048) :
    val_main_v7 (F := Ideal) x0 x1 (ix3 r s t)
      = ∑ d : Fin 512, val_main_v6 (F := Ideal) x0 x1 (ix3 r s d) * val_main_v6 (F := Ideal) x0 x1 (ix3 r t d) := by
  rw [val_main_v7_apply]
  refine Finset.sum_congr rfl fun d _ => ?_
  have el : lidx_main_v7 (ix3 r s t) d = ix3 r s d := (funext fun a => Fin.ext (by match a with | ⟨0, _⟩ => rfl | ⟨1, _⟩ => rfl | ⟨2, _⟩ => rfl))
  have er : ridx_main_v7 (ix3 r s t) d = ix3 r t d := (funext fun a => Fin.ext (by match a with | ⟨0, _⟩ => rfl | ⟨1, _⟩ => rfl | ⟨2, _⟩ => rfl))
  rw [el, er]

/-- A query's largest score: the host's max-reduce over the key axis is the fold of `max` from −∞ over the keys. -/
theorem rowmax_at (r : Fin 32) (s : Fin 2048) :
    val_main_v8 (F := Ideal) x0 x1 (ix2 r s)
      = (Finset.univ : Finset (Fin 2048)).fold max negInf (fun t => val_main_v7 (F := Ideal) x0 x1 (ix3 r s t)) := by
  unfold val_main_v8
  refine (Host.reduce_eq_fold_single FloatOps.maximumf _ _ reducesTo_S32x2048x2048_S32x2048_d2 (by decide) h_S_ (ix2 r s)).trans ?_
  refine Finset.fold_congr fun t _ => ?_
  exact congrArg (val_main_v7 (F := Ideal) x0 x1) (funext fun a => Fin.ext (by match a with | ⟨0, _⟩ => rfl | ⟨1, _⟩ => rfl | ⟨2, _⟩ => rfl))

/-- … joined once more with −∞ (the softmax takes the maximum twice: over the keys, then against −∞). -/
theorem top_at (r : Fin 32) (s : Fin 2048) :
    val_main_v10 (F := Ideal) x0 x1 (ix2 r s) = max negInf (val_main_v8 (F := Ideal) x0 x1 (ix2 r s)) := by
  rw [val_main_v10_apply, val_main_v9_apply, val_main_cst_1_apply]; rfl

/-- The maximum broadcast back along the key axis. -/
theorem top_bcast_at (r : Fin 32) (s t : Fin 2048) :
    val_main_v12 (F := Ideal) x0 x1 (ix3 r s t) = val_main_v10 (F := Ideal) x0 x1 (ix2 r s) := by
  rw [val_main_v12_apply, val_main_v11_apply]
  exact congrArg (val_main_v10 (F := Ideal) x0 x1) (funext fun a => Fin.ext (by match a with | ⟨0, _⟩ => rfl | ⟨1, _⟩ => rfl))

/-- The unnormalised softmax weight. -/
theorem weight_at (r : Fin 32) (s t : Fin 2048) :
    val_main_v14 (F := Ideal) x0 x1 (ix3 r s t)
      = Ideal.exp (val_main_v7 (F := Ideal) x0 x1 (ix3 r s t) - val_main_v10 (F := Ideal) x0 x1 (ix2 r s)) := by
  rw [val_main_v14_apply, val_main_v13_apply, top_bcast_at]; rfl

/-- A query's weights summed over the keys (the host's sum starts from the zero pattern, the real 0). -/
theorem denom_at (r : Fin 32) (s : Fin 2048) :
    val_main_v15 (F := Ideal) x0 x1 (ix2 r s) = ∑ t : Fin 2048, val_main_v14 (F := Ideal) x0 x1 (ix3 r s t) := by
  rw [val_main_v15_apply, val_main_cst_2_apply]
  show Ideal.ofBits .f32 0x00000000#32 + _ = _
  rw [Ideal.ofBits_zero_f32, zero_add]
  exact Finset.sum_congr rfl fun t _ => congrArg (val_main_v14 (F := Ideal) x0 x1) (funext fun a => Fin.ext (by match a with | ⟨0, _⟩ => rfl | ⟨1, _⟩ => rfl | ⟨2, _⟩ => rfl))

/-- The sum broadcast back along the key axis. -/
theorem denom_bcast_at (r : Fin 32) (s t : Fin 2048) :
    val_main_v17 (F := Ideal) x0 x1 (ix3 r s t) = val_main_v15 (F := Ideal) x0 x1 (ix2 r s) := by
  rw [val_main_v17_apply, val_main_v16_apply]
  exact congrArg (val_main_v15 (F := Ideal) x0 x1) (funext fun a => Fin.ext (by match a with | ⟨0, _⟩ => rfl | ⟨1, _⟩ => rfl))

/-- The softmax weight. -/
theorem attn_at (r : Fin 32) (s t : Fin 2048) :
    val_main_v18 (F := Ideal) x0 x1 (ix3 r s t)
      = Ideal.div (val_main_v14 (F := Ideal) x0 x1 (ix3 r s t)) (val_main_v15 (F := Ideal) x0 x1 (ix2 r s)) := by
  rw [val_main_v18_apply, denom_bcast_at]; rfl

/-- The attention output of query `s`, feature `d`. -/
theorem out_at (r : Fin 32) (s : Fin 2048) (d : Fin 512) :
    val_main_v19 (F := Ideal) x0 x1 (ix3 r s d)
      = ∑ t : Fin 2048, val_main_v18 (F := Ideal) x0 x1 (ix3 r s t) * val_main_v6 (F := Ideal) x0 x1 (ix3 r t d) := by
  rw [val_main_v19_apply]
  refine Finset.sum_congr rfl fun t _ => ?_
  have el : lidx_main_v19 (ix3 r s d) t = ix3 r s t := (funext fun a => Fin.ext (by match a with | ⟨0, _⟩ => rfl | ⟨1, _⟩ => rfl | ⟨2, _⟩ => rfl))
  have er : ridx_main_v19 (ix3 r s d) t = ix3 r t d := (funext fun a => Fin.ext (by match a with | ⟨0, _⟩ => rfl | ⟨1, _⟩ => rfl | ⟨2, _⟩ => rfl))
  rw [el, er]

/-- Pooling keeps query row 0: the slice then the reshape of [32, 1, 512] to [32, 512]. -/
theorem pooled_at (r : Fin 32) (d : Fin 512) :
    val_main_v21 (F := Ideal) x0 x1 (ix2 r d) = val_main_v19 (F := Ideal) x0 x1 (ix3 r (0 : Fin 2048) d) := by
  rw [val_main_v21_apply, val_main_v20_apply]
  refine congrArg (val_main_v19 (F := Ideal) x0 x1) (funext fun a => Fin.ext ?_)
  have hd : d.val < 512 := d.isLt
  match a with
  | ⟨0, _⟩ => show (r.val * 512 + d.val) / 512 = r.val; omega
  | ⟨1, _⟩ => rfl
  | ⟨2, _⟩ => show (r.val * 512 + d.val) % 512 = d.val; omega

/-- The classifier transposed. -/
theorem clsT_at (d : Fin 512) (c : Fin 2) : val_main_v22 (F := Ideal) x2 (ix2 d c) = x2 (ix2 c d) := by
  rw [val_main_v22_apply]
  exact congrArg x2 (funext fun a => Fin.ext (by match a with | ⟨0, _⟩ => rfl | ⟨1, _⟩ => rfl))

/-- The classifier product. -/
theorem proj_at (r : Fin 32) (c : Fin 2) :
    val_main_v23 (F := Ideal) x0 x1 x2 (ix2 r c)
      = ∑ d : Fin 512, val_main_v21 (F := Ideal) x0 x1 (ix2 r d) * val_main_v22 (F := Ideal) x2 (ix2 d c) := by
  rw [val_main_v23_apply]
  refine Finset.sum_congr rfl fun d _ => ?_
  have el : lidx_main_v23 (ix2 r c) d = ix2 r d := (funext fun a => Fin.ext (by match a with | ⟨0, _⟩ => rfl | ⟨1, _⟩ => rfl))
  have er : ridx_main_v23 (ix2 r c) d = ix2 d c := (funext fun a => Fin.ext (by match a with | ⟨0, _⟩ => rfl | ⟨1, _⟩ => rfl))
  rw [el, er]

/-- The bias broadcast down the batch rows. -/
theorem bias_at (r : Fin 32) (c : Fin 2) : val_main_v25 (F := Ideal) x3 (ix2 r c) = x3 (ix1 c) := by
  rw [val_main_v25_apply, val_main_v24_apply]
  exact congrArg x3 (funext fun a => Fin.ext (by match a with | ⟨0, _⟩ => rfl))

/-- THE REFERENCE'S RESULT at batch row `r`, class `c` is the row's logit of the gathered embeddings. -/
theorem result_at (r : Fin 32) (c : Fin 2) :
    val_main_v26 (F := Ideal) x0 x1 x2 x3 (ix2 r c) = logitAt (val_main_v6 (F := Ideal) x0 x1) x2 x3 r c := by
  rw [val_main_v26_apply, proj_at, bias_at]
  simp only [pooled_at, clsT_at, out_at, attn_at, denom_at, weight_at, top_at, rowmax_at, score_at]
  rfl

/-- … so the whole result array is `AttentionRow.logits` of them. -/
theorem result_eq : val_main_v26 (F := Ideal) x0 x1 x2 x3 = logits (val_main_v6 (F := Ideal) x0 x1) x2 x3 := by
  funext i
  obtain ⟨r, c, rfl⟩ : ∃ (r : Fin 32) (c : Fin 2), i = ix2 r c := ⟨i 0, i 1, eq_ix2 i⟩
  exact result_at x0 x1 x2 x3 r c

end Cert.ReferenceIdeal.RefRow

end
-- ==== Proof.lean ====
/- Pooled self-attention logits: the kernel against the reference, over the extended reals.

   Both programs embed the tokens (the same table lookup with the same indices) into X (batch × position × feature) and
   compute, for every batch row r and class c,
     logit[r, c] = (∑ d, (∑ s, softmax_s (∑ d', X[r,0,d'] · X[r,s,d']) · X[r,s,d]) · W[c,d]) + bias[c].
   The kernel does so for query position 0 only, eight batch rows per grid point, with the two contractions and the
   classifier product as matrix products into a zero accumulator and the changes of float format the identity; the
   reference computes the full attention for all 2048 queries and keeps query 0. Read at an index, each side is
   `AttentionRow.logits` of the embedded tokens, the classifier and the bias (KernelArray.result; ReferenceRow.result_eq):
   the same sums of the same products, the same maximum from −∞, the same exponential and quotient, so the two results are
   equal entry by entry and no property of the inputs is used. The three frames are the generated frame proofs and the
   reference's generated run; the idealization rewrote nothing, so `preserves` is `True`. -/
import proofs.«125949_j1494648619255_1_alg».proof.Defs
import proofs.«125949_j1494648619255_1_alg».proof.Proof.Gen.Kernel
import proofs.«125949_j1494648619255_1_alg».proof.Proof.Gen.Kernel.Skeleton
import proofs.«125949_j1494648619255_1_alg».proof.Proof.Gen.Kernel.Launch
import proofs.«125949_j1494648619255_1_alg».proof.Proof.Gen.Kernel.Points
import proofs.«125949_j1494648619255_1_alg».proof.Proof.Gen.Kernel.Frame
import proofs.«125949_j1494648619255_1_alg».proof.Proof.Gen.KernelIdeal
import proofs.«125949_j1494648619255_1_alg».proof.Proof.Gen.KernelIdeal.Skeleton
import proofs.«125949_j1494648619255_1_alg».proof.Proof.Gen.KernelIdeal.Launch
import proofs.«125949_j1494648619255_1_alg».proof.Proof.Gen.KernelIdeal.Points
import proofs.«125949_j1494648619255_1_alg».proof.Proof.Gen.KernelIdeal.Frame
import proofs.«125949_j1494648619255_1_alg».proof.Proof.Gen.ReferenceIdeal
import proofs.«125949_j1494648619255_1_alg».proof.Proof.Gen.Pre_finite_inputs
import proofs.«125949_j1494648619255_1_alg».proof.Proof.Gen.KernelIdeal.Value
import proofs.«125949_j1494648619255_1_alg».proof.Proof.Gen.ReferenceIdeal.Run
import proofs.«125949_j1494648619255_1_alg».proof.Proof.Gen.ReferenceIdeal.Read
import proofs.«125949_j1494648619255_1_alg».proof.Proof.KernelArray
import proofs.«125949_j1494648619255_1_alg».proof.Proof.ReferenceRow
import Idealize.ShloMosaic.Adequacy
import Idealize.ShloMosaic.Init

noncomputable section

namespace Cert.Proof

open Idealize.ShloMosaic Idealize.ShloMosaic.TcCoe Idealize.SL.Sem

/-- The kernel at the word level runs, faults nowhere and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The embedded tokens are one array on both sides: the same lookup of the same table at the same indices. -/
theorem embedded_eq (m : (ℓ : Loc Cert.KernelIdeal.nD Cert.KernelIdeal.τ Cert.KernelIdeal.sig) → Buf (Elt Ideal) ℓ) (c : Dev Cert.KernelIdeal.nD) :
    Cert.ReferenceIdeal.Read.val_main_v6 (F := Ideal) (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
      = Cert.KernelIdeal.KernelArray.embedded m c := rfl

/-- From memories that agree on the arguments the kernel's result array (the logits of the embedded tokens, block by
    block) and the reference's (the same logits, read off its operations) are one array. -/
theorem algebraic : Cert.algebraic_KernelIdeal_ReferenceIdeal := by
  intro m ρ m' ρ' _ hagree
  refine ⟨_, Cert.KernelIdeal.KernelArray.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v26_eq, Cert.ReferenceIdeal.RefRow.result_eq,
    (hagree c).1, (hagree c).2.1, (hagree c).2.2.1, (hagree c).2.2.2, embedded_eq]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
